-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 66
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S100000, .f32⟩
  | .hbm, ⟨54, _⟩ => ⟨S800000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S100000, .f32⟩
  | .hbm, ⟨54, _⟩ => ⟨S800000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Combine.lean ====
/-
  The directed neighbour-mean layer, as one function of whole arrays.

  For node features `x` (100000 rows of 128), the two neighbour means `aIn` and `aOut` (same shape), three
  128 × 128 weight matrices and three bias rows, the layer's output at row `r`, column `c` is

      (x[r,·]·W₁[·,c] + b₁[c]) + ½ · (aIn[r,·]·W₂[·,c] + b₂[c]) + ½ · (aOut[r,·]·W₃[·,c] + b₃[c]),

  each product a sum over the 128 feature columns, the sums and products those of the extended reals, and the
  additions associated as written. Nothing here distributes or cancels, so no entry need be finite.
-/
import Idealize.ShloMosaic.PureOps.Ideal
import Idealize.ShloMosaic.Lib.ValueIdx

noncomputable section

open scoped BigOperators

namespace Cert.DirSage

open Idealize.ShloMosaic Idealize.ShloMosaic.ValueIdx

/-- Node-feature arrays: one row of 128 features per node. -/
abbrev Nodes : Shape := ⟨2, ![100000, 128]⟩
/-- A weight matrix: input feature by output feature. -/
abbrev Weights : Shape := ⟨2, ![128, 128]⟩
/-- A bias: one entry per output feature. -/
abbrev BiasRow : Shape := ⟨1, ![128]⟩

/-- The mixing weight ½ of each direction, as the f32 word both programs carry. -/
def half : EReal := Ideal.ofBits .f32 0x3F000000#32

/-- One affine layer at a node and an output feature: the node's row of `a` against the feature's column of `W`,
    plus that feature's bias. -/
def affine (a : FVec Ideal Nodes .f32) (W : FVec Ideal Weights .f32) (b : FVec Ideal BiasRow .f32)
    (r : Fin 100000) (c : Fin 128) : EReal :=
  (∑ k : Fin 128, a (ix2 r k) * W (ix2 k c)) + b (ix1 c)

/-- The layer's output: the node's own affine image plus half of each direction's. -/
def layer (x aIn aOut : FVec Ideal Nodes .f32) (W₁ : FVec Ideal Weights .f32) (b₁ : FVec Ideal BiasRow .f32)
    (W₂ : FVec Ideal Weights .f32) (b₂ : FVec Ideal BiasRow .f32) (W₃ : FVec Ideal Weights .f32)
    (b₃ : FVec Ideal BiasRow .f32) : FVec Ideal Nodes .f32 := fun j =>
  (affine x W₁ b₁ (j 0) (j 1) + half * affine aIn W₂ b₂ (j 0) (j 1)) + half * affine aOut W₃ b₃ (j 0) (j 1)

/-- The layer at explicit coordinates. -/
theorem layer_ix2 (x aIn aOut : FVec Ideal Nodes .f32) (W₁ : FVec Ideal Weights .f32) (b₁ : FVec Ideal BiasRow .f32)
    (W₂ : FVec Ideal Weights .f32) (b₂ : FVec Ideal BiasRow .f32) (W₃ : FVec Ideal Weights .f32)
    (b₃ : FVec Ideal BiasRow .f32) (r : Fin 100000) (c : Fin 128) :
    layer x aIn aOut W₁ b₁ W₂ b₂ W₃ b₃ (ix2 r c)
      = (affine x W₁ b₁ r c + half * affine aIn W₂ b₂ r c) + half * affine aOut W₃ b₃ r c := rfl

end Cert.DirSage

end
-- ==== Proof.ReferenceLayer.lean ====
/-
  The reference program computes `layer`.

  Its last operation adds the three affine terms; read at a node `r` and an output feature `c`, each `dot_general`
  is the sum over the 128 input features of the left array's row `r` against the right array's column `c`, each
  bias is broadcast along the nodes, and the factor ½ is a constant broadcast. The two neighbour means enter only as
  the left operands of the second and third products: they are carried as the stages that compute them, unopened.
-/
import proofs.«128279_j57432302682548_1_alg».proof.Proof.Gen.ReferenceIdeal.Read
import proofs.«128279_j57432302682548_1_alg».proof.Proof.Combine

noncomputable section

open scoped BigOperators

namespace Cert.DirSage.Reference

open Cert.ReferenceIdeal Cert.ReferenceIdeal.Read Idealize.ShloMosaic Idealize.ShloMosaic.ValueIdx Cert.DirSage

/-! ## Where each operation reads its operands, at node `r` and output feature `c` -/

/-- The own-feature product reads row `r` of the node array, -/
theorem own_row (r : Fin 100000) (c k : Fin 128) : lidx_main_v42 (ix2 r c) k = ix2 r k :=
  funext fun a => Fin.ext (by match a with | ⟨0, _⟩ => rfl | ⟨1, _⟩ => rfl)
/-- and column `c` of its weights. -/
theorem own_col (r : Fin 100000) (c k : Fin 128) : ridx_main_v42 (ix2 r c) k = ix2 k c :=
  funext fun a => Fin.ext (by match a with | ⟨0, _⟩ => rfl | ⟨1, _⟩ => rfl)
/-- The incoming-mean product reads row `r` of the mean, -/
theorem in_row (r : Fin 100000) (c k : Fin 128) : lidx_main_v46 (ix2 r c) k = ix2 r k :=
  funext fun a => Fin.ext (by match a with | ⟨0, _⟩ => rfl | ⟨1, _⟩ => rfl)
/-- and column `c` of its weights. -/
theorem in_col (r : Fin 100000) (c k : Fin 128) : ridx_main_v46 (ix2 r c) k = ix2 k c :=
  funext fun a => Fin.ext (by match a with | ⟨0, _⟩ => rfl | ⟨1, _⟩ => rfl)
/-- The outgoing-mean product reads row `r` of the mean, -/
theorem out_row (r : Fin 100000) (c k : Fin 128) : lidx_main_v53 (ix2 r c) k = ix2 r k :=
  funext fun a => Fin.ext (by match a with | ⟨0, _⟩ => rfl | ⟨1, _⟩ => rfl)
/-- and column `c` of its weights. -/
theorem out_col (r : Fin 100000) (c k : Fin 128) : ridx_main_v53 (ix2 r c) k = ix2 k c :=
  funext fun a => Fin.ext (by match a with | ⟨0, _⟩ => rfl | ⟨1, _⟩ => rfl)
/-- Each bias, broadcast first to one row and then along the nodes, is read at feature `c`. -/
theorem own_bias (r : Fin 100000) (c : Fin 128) : idx_main_v43 (idx_main_v44 (ix2 r c)) = ix1 c :=
  funext fun a => Fin.ext (by match a with | ⟨0, _⟩ => rfl)
theorem in_bias (r : Fin 100000) (c : Fin 128) : idx_main_v47 (idx_main_v48 (ix2 r c)) = ix1 c :=
  funext fun a => Fin.ext (by match a with | ⟨0, _⟩ => rfl)
theorem out_bias (r : Fin 100000) (c : Fin 128) : idx_main_v54 (idx_main_v55 (ix2 r c)) = ix1 c :=
  funext fun a => Fin.ext (by match a with | ⟨0, _⟩ => rfl)

/-! ## The result -/

/-- The reference's result is the layer of its arguments and of the two neighbour means it computes from the node
    features and the edge list. -/
theorem result_eq_layer (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S2x800000, .i32⟩ : BufTy).Contents (Elt Ideal)) :
    val_main_v59 (F := Ideal) x0 x1 x2 x3 x4 x5 x6 x7
      = layer x0 (val_main_v22 (F := Ideal) x0 x7) (val_main_v41 (F := Ideal) x0 x7) x1 x2 x3 x4 x5 x6 := by
  funext j
  obtain ⟨r, c, rfl⟩ : ∃ (r : Fin 100000) (c : Fin 128), j = ix2 r c := ⟨j 0, j 1, eq_ix2 j⟩
  rw [val_main_v59_apply, val_main_v52_apply, val_main_v45_apply, val_main_v42_apply, val_main_v44_apply, val_main_v43_apply,
    val_main_v51_apply, val_main_v50_apply, val_main_cst_10_apply, val_main_v49_apply, val_main_v46_apply, val_main_v48_apply,
    val_main_v47_apply, val_main_v58_apply, val_main_v57_apply, val_main_cst_11_apply, val_main_v56_apply, val_main_v53_apply,
    val_main_v55_apply, val_main_v54_apply, layer_ix2]
  unfold affine half
  simp only [own_row, own_col, in_row, in_col, out_row, out_col, own_bias, in_bias, out_bias,
    Ideal.addf_def, Ideal.mulf_def, Ideal.ofBits_def]

end Cert.DirSage.Reference

end
-- ==== Proof.KernelBlock.lean ====
/-
  One tile of the kernel, read at an entry.

  The kernel body works on a tile of 4000 node rows. From the tile's rows of the node features and of the two
  neighbour means, the three whole weight matrices and the three bias rows (each a 1 × 128 array) it computes, at row
  `p` of the tile and output feature `q`,

      (x[p,·]·W₁[·,q] + b₁[0,q]) + ½ · (aIn[p,·]·W₂[·,q] + b₂[0,q]) + ½ · (aOut[p,·]·W₃[·,q] + b₃[0,q]).

  The narrowing of the operands before each product is the identity on extended reals, each product accumulates
  into zeros and so is the plain sum over the 128 input features, and each bias row is broadcast down the tile.
-/
import proofs.«128279_j57432302682548_1_alg».proof.Proof.Gen.KernelIdeal.Skeleton
import proofs.«128279_j57432302682548_1_alg».proof.Proof.Combine
import Idealize.ShloMosaic.Lib.ValueIdx
import Idealize.ShloMosaic.Lib.Pipeline.Value
import Idealize.ShloMosaic.PureOps.Ideal.Laws

noncomputable section

open scoped BigOperators

namespace Cert.DirSage.Kernel

open Cert.KernelIdeal Cert.KernelIdeal.Gen Idealize.ShloMosaic Idealize.ShloMosaic.ValueIdx Cert.DirSage

/-! ## The tile product's operand indices -/

/-- The left operand is read at the output's row -/
theorem prod_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- and the summed feature; -/
theorem prod_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the summed feature -/
theorem prod_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- and the output's column. -/
theorem prod_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A tile product into zeros, at row `p` and output feature `q`: the sum over the input features `k` of the tile's
    entry `(p, k)` times the weight `(k, q)`. -/
theorem product_ix2 {φ₁ φ₂ : FTy} (a : FVec Ideal S4000x128 φ₁) (W : FVec Ideal S128x128 φ₂) (p : Fin 4000) (q : Fin 128) :
    matmul dot_S4000x128_S128x128_S4000x128_1_0_0_1_n_n none a W (constant (F := Ideal) S4000x128 .f32 0x00000000#32) (ix2 p q)
      = ∑ k : Fin 128, a (ix2 p k) * W (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact prod_lhs_0 _ _
    | ⟨1, _⟩ => exact (prod_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (prod_rhs_0 _ _).trans hk
    | ⟨1, _⟩ => exact prod_rhs_1 _ _)
  rw [el, er]

/-- A bias row broadcast down the tile, at row `p` and feature `q`, is the row's entry `q`. -/
theorem bias_ix2 (b : FVec Ideal S1x128 .f32) (p : Fin 4000) (q : Fin 128) :
    broadcastTo S4000x128 b broadcasts_S1x128_S4000x128 (ix2 p q) = b (ix2 0 q) := by
  exact broadcastTo_apply b broadcasts_S1x128_S4000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The tile's result at row `p` and output feature `q`. -/
theorem payload_ix2 (v0 v2 v5 : Vec Ideal S4000x128 .f32) (v8 v10 v12 : Vec Ideal S128x128 .f32) (v17 v21 v28 : Vec Ideal S1x128 .f32)
    (p : Fin 4000) (q : Fin 128) :
    k0_pay1 (F := Ideal) v0 v2 v5 v8 v10 v12 v17 v21 v28 (ix2 p q)
      = (((∑ k : Fin 128, v0 (ix2 p k) * v8 (ix2 k q)) + v17 (ix2 0 q))
          + half * ((∑ k : Fin 128, v2 (ix2 p k) * v10 (ix2 k q)) + v21 (ix2 0 q)))
        + half * ((∑ k : Fin 128, v5 (ix2 p k) * v12 (ix2 k q)) + v28 (ix2 0 q)) := by
  unfold k0_pay1
  simp only [addf_apply, mulf_apply, broadcast_apply, product_ix2, bias_ix2, truncf_apply, shapeCast_self]
  rfl

end Cert.DirSage.Kernel

end
-- ==== Proof.KernelTiles.lean ====
/-
  The kernel's tiles.

  The kernel runs over 25 grid points; point `t` takes rows `4000·t … 4000·t + 3999` of the node features and of the
  two neighbour means, the whole of each weight matrix and bias row, and writes back the same rows of the output.
  Here each tile's entry is identified with the array entry it is a copy of, for ANY array of the window's shape:
  which entry a tile holds is a fact about the index maps alone, not about what the arrays contain.
-/
import proofs.«128279_j57432302682548_1_alg».proof.Proof.Gen.KernelIdeal.Value
import proofs.«128279_j57432302682548_1_alg».proof.Proof.KernelBlock

noncomputable section

open scoped BigOperators

namespace Cert.DirSage.Kernel

open Cert.KernelIdeal Cert.KernelIdeal.Gen Idealize.ShloMosaic Idealize.ShloMosaic.TcCoe Idealize.SL.Sem
open Idealize.ShloMosaic.ValueIdx Cert.DirSage
open Idealize.ShloMosaic.Pipeline (Dat)

variable (m : (ℓ : Loc nD τ sig) → Buf (Elt Ideal) ℓ)

/-! ## The index maps, decided over the 25 points -/

theorem origin : (![0, 0] : Fin 2 → Nat) = fun _ => 0 := funext fun a => by fin_cases a <;> rfl

/-- The three row-tiled inputs and the output take tile `t` at point `t`; the weights and biases take their one block. -/
theorem tile_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 25 := lt_of_lt_of_eq t.isLt N_0

/-- Row `p` of tile `t` is node `4000·t + p`. -/
def node (t : Fin cfg0.N) (p : Fin 4000) : Fin 100000 :=
  ⟨t.val * 4000 + p.val, by have := point_lt t; have := p.isLt; omega⟩

/-! ## Each tile's entry, in the array it is a copy of -/

/-- Tile `t` of the first row-tiled input: its entry `(p, k)` is the array's entry `(4000·t + p, k)`. -/
theorem feat_tile (A : Vec Ideal S100000x128 .f32) (t : Fin cfg0.N) (p : Fin 4000) (k : Fin 128) :
    (((cfg0.win 0).blk t).view.read (Elt Ideal) A) (ix2 p k) = A (ix2 (node t p) k) := by
  have e := tile_facts t
  rw [View.read_apply]
  refine congrArg A (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The second row-tiled input likewise, -/
theorem meanIn_tile (A : Vec Ideal S100000x128 .f32) (t : Fin cfg0.N) (p : Fin 4000) (k : Fin 128) :
    (((cfg0.win 1).blk t).view.read (Elt Ideal) A) (ix2 p k) = A (ix2 (node t p) k) := by
  have e := tile_facts t
  rw [View.read_apply]
  refine congrArg A (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- and the third. -/
theorem meanOut_tile (A : Vec Ideal S100000x128 .f32) (t : Fin cfg0.N) (p : Fin 4000) (k : Fin 128) :
    (((cfg0.win 2).blk t).view.read (Elt Ideal) A) (ix2 p k) = A (ix2 (node t p) k) := by
  have e := tile_facts t
  rw [View.read_apply]
  refine congrArg A (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

/-- A weight matrix is handed over whole at every point. -/
theorem wOwn_tile (A : Vec Ideal S128x128 .f32) (t : Fin cfg0.N) (k q : Fin 128) :
    (((cfg0.win 3).blk t).view.read (Elt Ideal) A) (ix2 k q) = A (ix2 k q) := by
  have e := tile_facts t
  rw [View.read_apply]
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem wIn_tile (A : Vec Ideal S128x128 .f32) (t : Fin cfg0.N) (k q : Fin 128) :
    (((cfg0.win 5).blk t).view.read (Elt Ideal) A) (ix2 k q) = A (ix2 k q) := by
  have e := tile_facts t
  rw [View.read_apply]
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem wOut_tile (A : Vec Ideal S128x128 .f32) (t : Fin cfg0.N) (k q : Fin 128) :
    (((cfg0.win 7).blk t).view.read (Elt Ideal) A) (ix2 k q) = A (ix2 k q) := by
  have e := tile_facts t
  rw [View.read_apply]
  refine congrArg A (funext fun a => Fin.ext ?_)
  match a with
  | ⟨0, _⟩ => show win0_7.index t (0 : Fin 2) * 128 + 1 * k.val = k.val; omega
  | ⟨1, _⟩ => show win0_7.index t (1 : Fin 2) * 128 + 1 * q.val = q.val; omega

/-- A bias row is handed over whole at every point. -/
theorem bOwn_tile (A : Vec Ideal S1x128 .f32) (t : Fin cfg0.N) (q : Fin 128) :
    (((cfg0.win 4).blk t).view.read (Elt Ideal) A) (ix2 0 q) = A (ix2 0 q) := by
  have e := tile_facts t
  rw [View.read_apply]
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem bIn_tile (A : Vec Ideal S1x128 .f32) (t : Fin cfg0.N) (q : Fin 128) :
    (((cfg0.win 6).blk t).view.read (Elt Ideal) A) (ix2 0 q) = A (ix2 0 q) := by
  have e := tile_facts t
  rw [View.read_apply]
  refine congrArg A (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem bOut_tile (A : Vec Ideal S1x128 .f32) (t : Fin cfg0.N) (q : Fin 128) :
    (((cfg0.win 8).blk t).view.read (Elt Ideal) A) (ix2 0 q) = A (ix2 0 q) := by
  have e := tile_facts t
  rw [View.read_apply]
  refine congrArg A (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

/-- Entry `(p, q)` of the output tile at point `t` is entry `(4000·t + p, q)` of the output array. -/
theorem out_tile (t : Fin cfg0.N) (p : Fin 4000) (q : Fin 128) :
    ((cfg0.win 9).blk t).view.emb (ix2 p q) = ix2 (node t p) q := by
  have e := tile_facts t
  refine funext fun a => Fin.ext ?_
  match a with
  | ⟨0, _⟩ => show win0_9.index t (0 : Fin 2) * 4000 + 1 * p.val = t.val * 4000 + p.val; omega
  | ⟨1, _⟩ => show win0_9.index t (1 : Fin 2) * 128 + 1 * q.val = q.val; omega

/-! ## One tile of the layer -/

/-- A bias row as a plain vector of 128. -/
def rowVec (b : Vec Ideal S1x128 .f32) : FVec Ideal BiasRow .f32 := fun j => b (ix2 0 (j 0))

/-- For any arrays of the windows' shapes: the tile payload on tile `t` of the three node arrays, the weights and the
    bias rows, at `(p, q)`, is the layer of the whole arrays at `(4000·t + p, q)`. -/
theorem tile_layer (X AI AO : Vec Ideal S100000x128 .f32) (W₁ W₂ W₃ : Vec Ideal S128x128 .f32) (B₁ B₂ B₃ : Vec Ideal S1x128 .f32)
    (t : Fin cfg0.N) (p : Fin 4000) (q : Fin 128) :
    k0_pay1 (F := Ideal) (((cfg0.win 0).blk t).view.read (Elt Ideal) X) (((cfg0.win 1).blk t).view.read (Elt Ideal) AI) (((cfg0.win 2).blk t).view.read (Elt Ideal) AO) (((cfg0.win 3).blk t).view.read (Elt Ideal) W₁) (((cfg0.win 5).blk t).view.read (Elt Ideal) W₂) (((cfg0.win 7).blk t).view.read (Elt Ideal) W₃) (((cfg0.win 4).blk t).view.read (Elt Ideal) B₁) (((cfg0.win 6).blk t).view.read (Elt Ideal) B₂) (((cfg0.win 8).blk t).view.read (Elt Ideal) B₃) (ix2 p q)
      = layer X AI AO W₁ (rowVec B₁) W₂ (rowVec B₂) W₃ (rowVec B₃) (ix2 (node t p) q) := by
  refine (payload_ix2 (((cfg0.win 0).blk t).view.read (Elt Ideal) X) (((cfg0.win 1).blk t).view.read (Elt Ideal) AI) (((cfg0.win 2).blk t).view.read (Elt Ideal) AO) (((cfg0.win 3).blk t).view.read (Elt Ideal) W₁) (((cfg0.win 5).blk t).view.read (Elt Ideal) W₂) (((cfg0.win 7).blk t).view.read (Elt Ideal) W₃) (((cfg0.win 4).blk t).view.read (Elt Ideal) B₁) (((cfg0.win 6).blk t).view.read (Elt Ideal) B₂) (((cfg0.win 8).blk t).view.read (Elt Ideal) B₃) p q).trans ?_
  have hX : ∀ k : Fin 128, (((cfg0.win 0).blk t).view.read (Elt Ideal) X) (ix2 p k) = X (ix2 (node t p) k) := fun k => feat_tile X t p k
  have hI : ∀ k : Fin 128, (((cfg0.win 1).blk t).view.read (Elt Ideal) AI) (ix2 p k) = AI (ix2 (node t p) k) := fun k => meanIn_tile AI t p k
  have hO : ∀ k : Fin 128, (((cfg0.win 2).blk t).view.read (Elt Ideal) AO) (ix2 p k) = AO (ix2 (node t p) k) := fun k => meanOut_tile AO t p k
  have hW₁ : ∀ k : Fin 128, (((cfg0.win 3).blk t).view.read (Elt Ideal) W₁) (ix2 k q) = W₁ (ix2 k q) := fun k => wOwn_tile W₁ t k q
  have hW₂ : ∀ k : Fin 128, (((cfg0.win 5).blk t).view.read (Elt Ideal) W₂) (ix2 k q) = W₂ (ix2 k q) := fun k => wIn_tile W₂ t k q
  have hW₃ : ∀ k : Fin 128, (((cfg0.win 7).blk t).view.read (Elt Ideal) W₃) (ix2 k q) = W₃ (ix2 k q) := fun k => wOut_tile W₃ t k q
  rw [bOwn_tile B₁ t q, bIn_tile B₂ t q, bOut_tile B₃ t q]
  simp only [hX, hI, hO, hW₁, hW₂, hW₃]
  rfl

end Cert.DirSage.Kernel

end
-- ==== Proof.KernelFlushed.lean ====
/-
  What one grid point writes back.

  Point `t` computes the tile payload on the tiles it was handed; those tiles are copies of rows
  `4000·t … 4000·t + 3999` of the arrays the region finds, so the tile it writes back is tile `t` of the layer of
  those arrays. The arrays are carried as found, unopened: only the index maps matter here.
-/
import proofs.«128279_j57432302682548_1_alg».proof.Proof.KernelTiles

noncomputable section

open scoped BigOperators

namespace Cert.DirSage.Kernel

open Cert.KernelIdeal Cert.KernelIdeal.Gen Idealize.ShloMosaic Idealize.ShloMosaic.TcCoe Idealize.SL.Sem
open Idealize.ShloMosaic.ValueIdx Cert.DirSage
open Idealize.ShloMosaic.Pipeline (Dat)

variable (m : (ℓ : Loc nD τ sig) → Buf (Elt Ideal) ℓ)

/-- The layer of the arrays the region finds, each named by the window that stages it: the node features, the two
    neighbour means, and each weight matrix with its bias row. -/
def found (c : Dev nD) : Vec Ideal S100000x128 .f32 :=
  layer (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (rowVec (V m c (Pipeline.arrRef spec0 (4 : Fin cfg0.W)))) (V m c (Pipeline.arrRef spec0 (5 : Fin cfg0.W))) (rowVec (V m c (Pipeline.arrRef spec0 (6 : Fin cfg0.W)))) (V m c (Pipeline.arrRef spec0 (7 : Fin cfg0.W))) (rowVec (V m c (Pipeline.arrRef spec0 (8 : Fin cfg0.W))))

/-- Point `t` writes back tile `t` of the layer of the arrays the region finds. -/
theorem flushed_eq (c : Dev nD) (t : Fin cfg0.N) :
    (dats m 0 c).flushed 9 t = ((cfg0.win 9).blk t).view.read (Elt Ideal) (found m c) := by
  rw [Cert.KernelIdeal.Value.flushed9]
  unfold out0_9
  rw [View.canon_unit_zero origin]
  simp only [View.ld_unit_zero (S := S4000x128) origin, View.ld_unit_zero (S := S128x128) origin, View.ld_unit_zero (S := S1x128) origin]
  unfold iblk
  funext j
  obtain ⟨p, q, rfl⟩ : ∃ (p : Fin 4000) (q : Fin 128), j = ix2 p q := ⟨j 0, j 1, eq_ix2 j⟩
  rw [View.read_apply, out_tile t p q]
  unfold found
  exact tile_layer (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (5 : Fin cfg0.W))) (V m c (Pipeline.arrRef spec0 (7 : Fin cfg0.W))) (V m c (Pipeline.arrRef spec0 (4 : Fin cfg0.W))) (V m c (Pipeline.arrRef spec0 (6 : Fin cfg0.W))) (V m c (Pipeline.arrRef spec0 (8 : Fin cfg0.W))) t p q

end Cert.DirSage.Kernel

end
-- ==== Proof.KernelLayer.lean ====
/-
  From tiles to the whole array.

  Node `r` lies in tile `r / 4000`, so the 25 tiles cover all 100000 rows, and since each point writes back its tile
  of ONE function — the layer of the arrays the region finds — the output array after the run is that function.
-/
import proofs.«128279_j57432302682548_1_alg».proof.Proof.KernelFlushed

noncomputable section

open scoped BigOperators

namespace Cert.DirSage.Kernel

open Cert.KernelIdeal Cert.KernelIdeal.Gen Idealize.ShloMosaic Idealize.ShloMosaic.TcCoe Idealize.SL.Sem
open Idealize.ShloMosaic.ValueIdx Cert.DirSage
open Idealize.ShloMosaic.Pipeline (Dat)

variable (m : (ℓ : Loc nD τ sig) → Buf (Elt Ideal) ℓ)
/-! ## The tiles cover the array -/

/-- An index of the output array is in point `t`'s tile iff each coordinate is in the tile's range. -/
theorem mem_tile (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v45).slice (win0_9.rect t)).set ↔ _
  rw [View.set_slice_whole, Rect.mem_set_unit]
  exact Iff.rfl

/-- Node `r` lies in tile `r / 4000`. -/
theorem covered (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  let t : Fin cfg0.N := ⟨(i 0).val / 4000, lt_of_lt_of_eq (by omega : (i 0).val / 4000 < 25) N_0.symm⟩
  obtain ⟨-, -, -, -, -, -, -, -, -, -, -, -, -, -, -, -, -, -, e0, e1⟩ := tile_facts t
  have ht : t.val = (i 0).val / 4000 := rfl
  refine ⟨t, flush0_9 t, ?_⟩
  rw [mem_tile]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- The output array after the run is the layer of the arrays the region finds. -/
theorem final (c : Dev nD) : (dats m 0 c).arrAt 9 cfg0.N = found m c :=
  (dats m 0 c).arrAt_eq_of_cover 9 (found m c) (fun t _ => flushed_eq m c t) covered

end Cert.DirSage.Kernel

end
-- ==== Proof.FoundArrays.lean ====
/-
  What the region finds.

  Before the kernel region the program computes, on the host, exactly what the reference computes first: the two
  neighbour means of the node features along the edge list (for each direction: gather the source rows, add them up
  per target node, count the edges per target node, and divide by the count or by one where there is none). It
  also lays each bias out as a 1 × 128 row. So the two mean arrays the region finds are the reference's two mean
  stages of the same arguments — the same operations in the same order, hence equal without opening any of them —
  and entry `(0, q)` of a bias row is entry `q` of the bias.
-/
import proofs.«128279_j57432302682548_1_alg».proof.Proof.Gen.KernelIdeal.Frame
import proofs.«128279_j57432302682548_1_alg».proof.Proof.Gen.ReferenceIdeal.Read
import Idealize.ShloMosaic.Lib.StableHlo.Run
import Idealize.ShloMosaic.Lib.Pipeline.Value
import Idealize.ShloMosaic.Lib.ValueIdx

noncomputable section

namespace Cert.DirSage.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 8000000 in
/-- The mean over incoming neighbours, as the region finds it, is the reference's stage of the node features and the
    edge list. -/
theorem meanIn_found (c : Dev nD) :
    (V m c main_v22 : S100000x128.Idx → EReal)
      = Cert.ReferenceIdeal.Read.val_main_v22 (F := Ideal) (m ((c : Thread nD τ).loc main_arg0)) (m ((c : Thread nD τ).loc main_arg7)) := by
  dsimp only [V, hostOps0]
  after_results_simp
  rfl

set_option maxRecDepth 8192 in
set_option maxHeartbeats 8000000 in
/-- The mean over outgoing neighbours likewise. -/
theorem meanOut_found (c : Dev nD) :
    (V m c main_v41 : S100000x128.Idx → EReal)
      = Cert.ReferenceIdeal.Read.val_main_v41 (F := Ideal) (m ((c : Thread nD τ).loc main_arg0)) (m ((c : Thread nD τ).loc main_arg7)) := by
  dsimp only [V, hostOps0]
  after_results_simp
  rfl

/-- A bias laid out as a row: entry `(0, q)` of the row is entry `q` of the bias. -/
theorem row_entry (b : S128.Idx → EReal) (q : Fin 128) :
    shapeCast S1x128 b shapeCasts_S128_S1x128 (ix2 0 q) = b (ix1 q) :=
  shapeCast_apply b shapeCasts_S128_S1x128 (ix2 0 q) (ix1 q) (by
    rw [Shape.rowMajor_val_one, Shape.rowMajor_val_two]
    show q.val = 0 * 128 + q.val
    omega)

set_option maxRecDepth 8192 in
set_option maxHeartbeats 8000000 in
theorem bOwn_found (c : Dev nD) :
    (V m c main_v42 : S1x128.Idx → EReal) = shapeCast S1x128 (m ((c : Thread nD τ).loc main_arg2)) shapeCasts_S128_S1x128 := by
  dsimp only [V, hostOps0]
  after_results_simp
  rfl

set_option maxRecDepth 8192 in
set_option maxHeartbeats 8000000 in
theorem bIn_found (c : Dev nD) :
    (V m c main_v43 : S1x128.Idx → EReal) = shapeCast S1x128 (m ((c : Thread nD τ).loc main_arg4)) shapeCasts_S128_S1x128 := by
  dsimp only [V, hostOps0]
  after_results_simp
  rfl

set_option maxRecDepth 8192 in
set_option maxHeartbeats 8000000 in
theorem bOut_found (c : Dev nD) :
    (V m c main_v44 : S1x128.Idx → EReal) = shapeCast S1x128 (m ((c : Thread nD τ).loc main_arg6)) shapeCasts_S128_S1x128 := by
  dsimp only [V, hostOps0]
  after_results_simp
  rfl

/-! ## The same arrays, named by the windows that stage them

A window names its array through the launch's table of windows; the name computes to the buffer. The contents at
the two names are the same term once the name is computed, which is all that is said here: nothing is opened. -/

theorem ref_feat : Pipeline.arrRef spec0 (0 : Fin cfg0.W) = main_arg0 := rfl
theorem ref_meanIn : Pipeline.arrRef spec0 (1 : Fin cfg0.W) = main_v22 := rfl
theorem ref_meanOut : Pipeline.arrRef spec0 (2 : Fin cfg0.W) = main_v41 := rfl
theorem ref_wOwn : Pipeline.arrRef spec0 (3 : Fin cfg0.W) = main_arg1 := rfl
theorem ref_bOwn : Pipeline.arrRef spec0 (4 : Fin cfg0.W) = main_v42 := rfl
theorem ref_wIn : Pipeline.arrRef spec0 (5 : Fin cfg0.W) = main_arg3 := rfl
theorem ref_bIn : Pipeline.arrRef spec0 (6 : Fin cfg0.W) = main_v43 := rfl
theorem ref_wOut : Pipeline.arrRef spec0 (7 : Fin cfg0.W) = main_arg5 := rfl
theorem ref_bOut : Pipeline.arrRef spec0 (8 : Fin cfg0.W) = main_v44 := rfl

/-- Window 0 stages the node features as launched. -/
theorem feat_window (c : Dev nD) :
    (V m c (Pipeline.arrRef spec0 (0 : Fin cfg0.W)) : S100000x128.Idx → EReal) = m ((c : Thread nD τ).loc main_arg0) :=
  (eq_of_heq (by rw [ref_feat] : HEq (V m c (Pipeline.arrRef spec0 (0 : Fin cfg0.W))) (V m c main_arg0))).trans (V_main_arg0 m c)

/-- Window 1 stages the mean over incoming neighbours: the reference's stage of the node features and the edge list. -/
theorem meanIn_window (c : Dev nD) :
    (V m c (Pipeline.arrRef spec0 (1 : Fin cfg0.W)) : S100000x128.Idx → EReal)
      = Cert.ReferenceIdeal.Read.val_main_v22 (F := Ideal) (m ((c : Thread nD τ).loc main_arg0)) (m ((c : Thread nD τ).loc main_arg7)) :=
  (eq_of_heq (by rw [ref_meanIn] : HEq (V m c (Pipeline.arrRef spec0 (1 : Fin cfg0.W))) (V m c main_v22))).trans (meanIn_found m c)

/-- Window 2 stages the mean over outgoing neighbours. -/
theorem meanOut_window (c : Dev nD) :
    (V m c (Pipeline.arrRef spec0 (2 : Fin cfg0.W)) : S100000x128.Idx → EReal)
      = Cert.ReferenceIdeal.Read.val_main_v41 (F := Ideal) (m ((c : Thread nD τ).loc main_arg0)) (m ((c : Thread nD τ).loc main_arg7)) :=
  (eq_of_heq (by rw [ref_meanOut] : HEq (V m c (Pipeline.arrRef spec0 (2 : Fin cfg0.W))) (V m c main_v41))).trans (meanOut_found m c)

/-- Windows 3, 5 and 7 stage the three weight matrices as launched. -/
theorem wOwn_window (c : Dev nD) :
    (V m c (Pipeline.arrRef spec0 (3 : Fin cfg0.W)) : S128x128.Idx → EReal) = m ((c : Thread nD τ).loc main_arg1) :=
  (eq_of_heq (by rw [ref_wOwn] : HEq (V m c (Pipeline.arrRef spec0 (3 : Fin cfg0.W))) (V m c main_arg1))).trans (V_main_arg1 m c)
theorem wIn_window (c : Dev nD) :
    (V m c (Pipeline.arrRef spec0 (5 : Fin cfg0.W)) : S128x128.Idx → EReal) = m ((c : Thread nD τ).loc main_arg3) :=
  (eq_of_heq (by rw [ref_wIn] : HEq (V m c (Pipeline.arrRef spec0 (5 : Fin cfg0.W))) (V m c main_arg3))).trans (V_main_arg3 m c)
theorem wOut_window (c : Dev nD) :
    (V m c (Pipeline.arrRef spec0 (7 : Fin cfg0.W)) : S128x128.Idx → EReal) = m ((c : Thread nD τ).loc main_arg5) :=
  (eq_of_heq (by rw [ref_wOut] : HEq (V m c (Pipeline.arrRef spec0 (7 : Fin cfg0.W))) (V m c main_arg5))).trans (V_main_arg5 m c)

/-- Windows 4, 6 and 8 stage the three biases laid out as rows. -/
theorem bOwn_window (c : Dev nD) :
    (V m c (Pipeline.arrRef spec0 (4 : Fin cfg0.W)) : S1x128.Idx → EReal) = shapeCast S1x128 (m ((c : Thread nD τ).loc main_arg2)) shapeCasts_S128_S1x128 :=
  (eq_of_heq (by rw [ref_bOwn] : HEq (V m c (Pipeline.arrRef spec0 (4 : Fin cfg0.W))) (V m c main_v42))).trans (bOwn_found m c)
theorem bIn_window (c : Dev nD) :
    (V m c (Pipeline.arrRef spec0 (6 : Fin cfg0.W)) : S1x128.Idx → EReal) = shapeCast S1x128 (m ((c : Thread nD τ).loc main_arg4)) shapeCasts_S128_S1x128 :=
  (eq_of_heq (by rw [ref_bIn] : HEq (V m c (Pipeline.arrRef spec0 (6 : Fin cfg0.W))) (V m c main_v43))).trans (bIn_found m c)
theorem bOut_window (c : Dev nD) :
    (V m c (Pipeline.arrRef spec0 (8 : Fin cfg0.W)) : S1x128.Idx → EReal) = shapeCast S1x128 (m ((c : Thread nD τ).loc main_arg6)) shapeCasts_S128_S1x128 :=
  (eq_of_heq (by rw [ref_bOut] : HEq (V m c (Pipeline.arrRef spec0 (8 : Fin cfg0.W))) (V m c main_v44))).trans (bOut_found m c)

end Cert.DirSage.Kernel

end
-- ==== Proof.KernelResult.lean ====
/-
  The kernel's result, in terms of the arguments.

  The output array after the run is the layer of the arrays the region finds. Those are the node features and the
  weights as launched, the two neighbour means as the reference's own stages of the node features and the edge list,
  and each bias laid out as a row — which, read back as a vector, is the bias. So the kernel's result is the layer of
  the arguments and of the two neighbour means: the function the reference computes.
-/
import proofs.«128279_j57432302682548_1_alg».proof.Proof.KernelLayer
import proofs.«128279_j57432302682548_1_alg».proof.Proof.FoundArrays

noncomputable section

open scoped BigOperators

namespace Cert.DirSage.Kernel

open Cert.KernelIdeal Cert.KernelIdeal.Gen Idealize.ShloMosaic Idealize.ShloMosaic.TcCoe Idealize.SL.Sem
open Idealize.ShloMosaic.ValueIdx Cert.DirSage
open Idealize.ShloMosaic.Pipeline (Dat)
open Idealize.ShloMosaic.StableHlo

variable (m : (ℓ : Loc nD τ sig) → Buf (Elt Ideal) ℓ)

/-- The layer respects equality of each of its nine arrays. -/
theorem layer_congr {X X' AI AI' AO AO' : FVec Ideal Nodes .f32} {W₁ W₁' W₂ W₂' W₃ W₃' : FVec Ideal Weights .f32}
    {b₁ b₁' b₂ b₂' b₃ b₃' : FVec Ideal BiasRow .f32}
    (hX : X = X') (hI : AI = AI') (hO : AO = AO') (hW₁ : W₁ = W₁') (hb₁ : b₁ = b₁') (hW₂ : W₂ = W₂') (hb₂ : b₂ = b₂')
    (hW₃ : W₃ = W₃') (hb₃ : b₃ = b₃') :
    layer X AI AO W₁ b₁ W₂ b₂ W₃ b₃ = layer X' AI' AO' W₁' b₁' W₂' b₂' W₃' b₃' := by
  subst hX hI hO hW₁ hb₁ hW₂ hb₂ hW₃ hb₃; rfl

/-- A bias laid out as a row and read back as a vector is the bias. -/
theorem rowVec_row (b : S128.Idx → EReal) : rowVec (shapeCast S1x128 b shapeCasts_S128_S1x128) = b :=
  funext fun j => (row_entry b (j 0)).trans (congrArg b (eq_ix1 j).symm)

/-- The layer of the arguments: the node features, the two neighbour means computed from them and the edge list,
    and the three weight matrices with their biases. -/
def result (c : Dev nD) : S100000x128.Idx → EReal :=
  layer (m ((c : Thread nD τ).loc main_arg0))
    (Cert.ReferenceIdeal.Read.val_main_v22 (F := Ideal) (m ((c : Thread nD τ).loc main_arg0)) (m ((c : Thread nD τ).loc main_arg7)))
    (Cert.ReferenceIdeal.Read.val_main_v41 (F := Ideal) (m ((c : Thread nD τ).loc main_arg0)) (m ((c : Thread nD τ).loc main_arg7)))
    (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- What the region finds, expressed in the arguments. -/
theorem found_eq (c : Dev nD) : found m c = result m c :=
  layer_congr (feat_window m c) (meanIn_window m c) (meanOut_window m c)
    (wOwn_window m c) ((congrArg rowVec (bOwn_window m c)).trans (rowVec_row _))
    (wIn_window m c) ((congrArg rowVec (bIn_window m c)).trans (rowVec_row _))
    (wOut_window m c) ((congrArg rowVec (bOut_window m c)).trans (rowVec_row _))

/-- The kernel's run: it terminates without fault with the output array at the layer of the arguments, the arguments
    unchanged. -/
theorem run (ρ : Dev nD → PrngReg) : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (found_eq m c)), (h c).2⟩)
    (Cert.KernelIdeal.Value.run_blocks m ρ)

end Cert.DirSage.Kernel

end
-- ==== Proof.lean ====
/-
  A directed neighbour-mean graph layer: the kernel against its reference.

  Both programs first compute, on the host and by the same operations in the same order, the mean of the node
  features over each node's incoming and over its outgoing neighbours. The reference then forms
  `(x·W₁ + b₁) + ½·(meanIn·W₂ + b₂) + ½·(meanOut·W₃ + b₃)` with three whole matrix products; the kernel forms the same
  expression tile by tile, 4000 node rows at a time, narrowing its operands before each product. On the extended reals
  the narrowing is the identity, a product accumulated into zeros is the plain sum over the 128 features, and the 25
  tiles cover the rows, so both results are one function of the arguments, entry by entry. No law used needs a finite
  entry: the precondition is never opened.

  The three frames are the generated ones (the reference's is its generated run with the result dropped); the
  idealization rewrote nothing, so `preserves` is trivial.
-/
import proofs.«128279_j57432302682548_1_alg».proof.Defs
import proofs.«128279_j57432302682548_1_alg».proof.Proof.Gen.Kernel
import proofs.«128279_j57432302682548_1_alg».proof.Proof.Gen.Kernel.Skeleton
import proofs.«128279_j57432302682548_1_alg».proof.Proof.Gen.Kernel.Launch
import proofs.«128279_j57432302682548_1_alg».proof.Proof.Gen.Kernel.Points
import proofs.«128279_j57432302682548_1_alg».proof.Proof.Gen.Kernel.Frame
import proofs.«128279_j57432302682548_1_alg».proof.Proof.Gen.KernelIdeal
import proofs.«128279_j57432302682548_1_alg».proof.Proof.Gen.KernelIdeal.Skeleton
import proofs.«128279_j57432302682548_1_alg».proof.Proof.Gen.KernelIdeal.Launch
import proofs.«128279_j57432302682548_1_alg».proof.Proof.Gen.KernelIdeal.Points
import proofs.«128279_j57432302682548_1_alg».proof.Proof.Gen.KernelIdeal.Frame
import proofs.«128279_j57432302682548_1_alg».proof.Proof.Gen.ReferenceIdeal
import proofs.«128279_j57432302682548_1_alg».proof.Proof.Gen.Pre_finite_inputs
import proofs.«128279_j57432302682548_1_alg».proof.Proof.Gen.KernelIdeal.Value
import proofs.«128279_j57432302682548_1_alg».proof.Proof.Gen.ReferenceIdeal.Run
import proofs.«128279_j57432302682548_1_alg».proof.Proof.Gen.ReferenceIdeal.Read
import proofs.«128279_j57432302682548_1_alg».proof.Proof.ReferenceLayer
import proofs.«128279_j57432302682548_1_alg».proof.Proof.KernelResult
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of the arguments. -/
theorem algebraic : Cert.algebraic_KernelIdeal_ReferenceIdeal := by
  intro m ρ m' ρ' _ hagree
  refine ⟨fun c => Cert.DirSage.Kernel.result m c, Cert.DirSage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  unfold Cert.DirSage.Kernel.result
  rw [Cert.ReferenceIdeal.Read.val_main_v59_eq, Cert.DirSage.Reference.result_eq_layer, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
